-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S128x64 .f32) (main_arg5 : FVec F S64x64 .f32) (main_arg6 : FVec F S64 .f32) (main_arg7 : FVec F S64x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S6250x128x64 : Shape := ⟨3, ![6250, 128, 64]⟩
abbrev S6336x128x64 : Shape := ⟨3, ![6336, 128, 64]⟩
abbrev S6336x128 : Shape := ⟨2, ![6336, 128]⟩
abbrev S96x128x64 : Shape := ⟨3, ![96, 128, 64]⟩
abbrev S96x128 : Shape := ⟨2, ![96, 128]⟩
abbrev S811008 : Shape := ⟨1, ![811008]⟩

abbrev nBuf : Space → Nat
  | .hbm => 95
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x64, .f32⟩
  | .hbm, ⟨84, _⟩ => ⟨S6250x128x64, .f32⟩
  | .hbm, ⟨85, _⟩ => ⟨S6250x128x64, .f32⟩
  | .hbm, ⟨86, _⟩ => ⟨S_, .i32⟩
  | .hbm, ⟨87, _⟩ => ⟨S_, .f32⟩
  | .hbm, ⟨88, _⟩ => ⟨S6336x128x64, .f32⟩
  | .hbm, ⟨89, _⟩ => ⟨S_, .i32⟩
  | .hbm, ⟨90, _⟩ => ⟨S_, .f32⟩
  | .hbm, ⟨91, _⟩ => ⟨S6336x128x64, .f32⟩
  | .hbm, ⟨92, _⟩ => ⟨S6336x128, .f32⟩
  | .hbm, ⟨93, _⟩ => ⟨S811008, .f32⟩
  | .hbm, ⟨94, _⟩ => ⟨S800000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S96x128x64, .f32⟩
  | .local _ .vmem, ⟨19, _⟩ => ⟨S96x128x64, .f32⟩
  | .local _ .vmem, ⟨20, _⟩ => ⟨S96x128x64, .f32⟩
  | .local _ .vmem, ⟨21, _⟩ => ⟨S96x128x64, .f32⟩
  | .local _ .vmem, ⟨22, _⟩ => ⟨S96x128, .f32⟩
  | .local _ .vmem, ⟨23, _⟩ => ⟨S96x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_call0_v0 : Ref sig .tc := ⟨.hbm, 87, rfl⟩
abbrev main_v62 : Ref sig .tc := ⟨.hbm, 88, rfl⟩
abbrev main_c_15 : Ref sig .tc := ⟨.hbm, 89, rfl⟩
abbrev main_call1_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![66], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S96x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S96x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S96x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S800000x64_S6250x128x64 : S800000x64.ShapeCasts S6250x128x64
  pads_S6250x128x64_S6336x128x64_0860_000_000 : S6250x128x64.Pads (![0, 0, 0] : Fin 3 → Nat) ![86, 0, 0] ![0, 0, 0] S6336x128x64
  h_S_ : 0 < S_.numel
  inb_S96x128x64_S96x128x64_0_0_0 : ∀ a, (![0, 0, 0] : Fin 3 → Nat) a + S96x128x64.size a ≤ S96x128x64.size a
  h_S96x128x64 : 0 < S96x128x64.numel
  shapeCasts_S96x128x64_S96x128x64 : S96x128x64.ShapeCasts S96x128x64
  reduces_S96x128x64_S96x128 : S96x128x64.Reduces [2] S96x128
  inb_S96x128_S96x128_0_0 : ∀ a, (![0, 0] : Fin 2 → Nat) a + S96x128.size a ≤ S96x128.size a
  h_S96x128 : 0 < S96x128.numel
  shapeCasts_S6336x128_S811008 : S6336x128.ShapeCasts S811008
  slices_S811008_S800000_0 : S811008.Slices ![0] S800000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S96x128x64.size a ≤ S6336x128x64.size a
  hwx2_0 : ∀ i : grid2.Coords, EltTy.bits .f32 = 32 ∨ (Rect.block (s := S6336x128x64) S96x128x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S96x128x64.size a ≤ S6336x128x64.size a
  hwx2_1 : ∀ i : grid2.Coords, EltTy.bits .f32 = 32 ∨ (Rect.block (s := S6336x128x64) S96x128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S96x128.size a ≤ S6336x128.size a
  hwx2_2 : ∀ i : grid2.Coords, EltTy.bits .f32 = 32 ∨ (Rect.block (s := S6336x128) S96x128.size (cc2_transform_2 i) (hinb2_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S96x128x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S96x128x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S96x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .f32⟩
  | .hbm, ⟨95, _⟩ => ⟨S800000x64, .f32⟩
  | .hbm, ⟨96, _⟩ => ⟨S_, .f32⟩
  | .hbm, ⟨97, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  reducesTo_S800000x64_S800000_d1 : S800000x64.ReducesTo [1] S800000
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The three functions the program is made of, on the extended reals, index by index.

  One layer: for a node `r` and an output channel `j`, the mean-aggregated neighbour features `a` against the weight
  `wl`, plus the node's own features `x` against the weight `wr`, plus the bias: two sums over the input channels and
  one addend. The first layer clamps this at zero from below. The decoder: for a pair of rows of two arrays of
  per-edge embeddings, the sum over the channels of the products.
-/
import Idealize.ShloMosaic.PureOps.Ideal
import Idealize.ShloMosaic.Lib.ValueIdx

noncomputable section

open scoped BigOperators

namespace Cert.Sage

open Idealize.ShloMosaic Idealize.ShloMosaic.ValueIdx

/-- One layer before its activation, at node `r` and channel `j`:
    `(∑ k, a (r, k) * wl (k, j) + ∑ k, x (r, k) * wr (k, j)) + b (0, j)`. -/
def lin {R K N : ℕ} (a x : (⟨2, ![R, K]⟩ : Shape).Idx → EReal) (wl wr : (⟨2, ![K, N]⟩ : Shape).Idx → EReal)
    (b : (⟨2, ![1, N]⟩ : Shape).Idx → EReal) : (⟨2, ![R, N]⟩ : Shape).Idx → EReal :=
  fun i => ((∑ k : Fin K, a (ix2 (⟨(i 0).val, (i 0).isLt⟩ : Fin R) k) * wl (ix2 k (⟨(i 1).val, (i 1).isLt⟩ : Fin N)))
      + ∑ k : Fin K, x (ix2 (⟨(i 0).val, (i 0).isLt⟩ : Fin R) k) * wr (ix2 k (⟨(i 1).val, (i 1).isLt⟩ : Fin N)))
    + b (ix2 (0 : Fin 1) (⟨(i 1).val, (i 1).isLt⟩ : Fin N))

/-- The same read at explicit coordinates. -/
theorem lin_apply {R K N : ℕ} (a x : (⟨2, ![R, K]⟩ : Shape).Idx → EReal) (wl wr : (⟨2, ![K, N]⟩ : Shape).Idx → EReal)
    (b : (⟨2, ![1, N]⟩ : Shape).Idx → EReal) (r : Fin R) (j : Fin N) :
    lin a x wl wr b (ix2 r j)
      = ((∑ k : Fin K, a (ix2 r k) * wl (ix2 k j)) + ∑ k : Fin K, x (ix2 r k) * wr (ix2 k j)) + b (ix2 (0 : Fin 1) j) := rfl

/-- One layer followed by the clamp at zero from below. -/
def linRelu {R K N : ℕ} (a x : (⟨2, ![R, K]⟩ : Shape).Idx → EReal) (wl wr : (⟨2, ![K, N]⟩ : Shape).Idx → EReal)
    (b : (⟨2, ![1, N]⟩ : Shape).Idx → EReal) : (⟨2, ![R, N]⟩ : Shape).Idx → EReal :=
  fun i => max (lin a x wl wr b i) 0

theorem linRelu_apply {R K N : ℕ} (a x : (⟨2, ![R, K]⟩ : Shape).Idx → EReal) (wl wr : (⟨2, ![K, N]⟩ : Shape).Idx → EReal)
    (b : (⟨2, ![1, N]⟩ : Shape).Idx → EReal) (r : Fin R) (j : Fin N) :
    linRelu a x wl wr b (ix2 r j)
      = max (((∑ k : Fin K, a (ix2 r k) * wl (ix2 k j)) + ∑ k : Fin K, x (ix2 r k) * wr (ix2 k j)) + b (ix2 (0 : Fin 1) j)) 0 := rfl

/-- The decoder on arrays cut into `R` groups of `L` edges: at group `r`, edge `l`, the sum over the channels of the
    products of the two embeddings. -/
def dots {R L K : ℕ} (zs zd : (⟨3, ![R, L, K]⟩ : Shape).Idx → EReal) : (⟨2, ![R, L]⟩ : Shape).Idx → EReal :=
  fun i => ∑ k : Fin K, zs (ix3 (⟨(i 0).val, (i 0).isLt⟩ : Fin R) (⟨(i 1).val, (i 1).isLt⟩ : Fin L) k)
    * zd (ix3 (⟨(i 0).val, (i 0).isLt⟩ : Fin R) (⟨(i 1).val, (i 1).isLt⟩ : Fin L) k)

theorem dots_apply {R L K : ℕ} (zs zd : (⟨3, ![R, L, K]⟩ : Shape).Idx → EReal) (r : Fin R) (l : Fin L) :
    dots zs zd (ix2 r l) = ∑ k : Fin K, zs (ix3 r l k) * zd (ix3 r l k) := rfl

end Cert.Sage

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.Layer1.lean ====
/-
  The first layer's kernel, over its whole output array. The grid cuts the 50000 nodes into ten blocks of 5000 rows; at a
  block the body multiplies the block's rows of the aggregated features and of the node features against the two whole
  weight matrices, adds the two products and the bias row, and clamps at zero. A row of the result depends on that row of
  the two inputs only, so the ten blocks written back are the ten row ranges of ONE function of the whole arrays.
-/
import proofs.«172463_j18047452577826_1_alg».proof.Proof.Gen.KernelIdeal.Frame
import proofs.«172463_j18047452577826_1_alg».proof.Proof.Spec
import proofs.«172463_j18047452577826_1_alg».proof.Proof.LibRowOps
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-- The body's arithmetic at row `p`, column `q` of a block: both products into the zero accumulator are sums over the
    contracted axis, the bias row is read at column `q`, and the result is clamped at zero. The casts to the narrower
    format are the identity on the ideal values. -/
theorem pay_apply (x0 x1 : Vec Ideal S5000x128 .f32) (x2 x3 : Vec Ideal S128x64 .f32) (x4 : Vec Ideal S1x64 .f32)
    (p : Fin 5000) (q : Fin 64) :
    k0_pay1 (F := Ideal) x0 x1 x2 x3 x4 (ix2 p q)
      = max (((∑ k : Fin 128, x0 (ix2 p k) * x2 (ix2 k q)) + ∑ k : Fin 128, x1 (ix2 p k) * x3 (ix2 k q))
          + x4 (ix2 (0 : Fin 1) q)) 0 := by
  have e1 : FloatOps.matmul (F := Ideal) dot_S5000x128_S128x64_S5000x64_1_0_0_1_n_n none
        (truncf (F := Ideal) .bf16 x0 bitsLt_bf16_f32) (truncf (F := Ideal) .bf16 x2 bitsLt_bf16_f32)
        (constant (F := Ideal) S5000x64 .f32 0x00000000#32) (ix2 p q)
      = ∑ k : Fin 128, x0 (ix2 p k) * x2 (ix2 k q) :=
    Cert.RowOps.matmul_row_apply (R := 5000) (K := 128) (N := 64) dot_S5000x128_S128x64_S5000x64_1_0_0_1_n_n
      rfl rfl rfl rfl rfl rfl none (truncf (F := Ideal) .bf16 x0 bitsLt_bf16_f32) (truncf (F := Ideal) .bf16 x2 bitsLt_bf16_f32) p q
  have e2 : FloatOps.matmul (F := Ideal) dot_S5000x128_S128x64_S5000x64_1_0_0_1_n_n none
        (truncf (F := Ideal) .bf16 x1 bitsLt_bf16_f32) (truncf (F := Ideal) .bf16 x3 bitsLt_bf16_f32)
        (constant (F := Ideal) S5000x64 .f32 0x00000000#32) (ix2 p q)
      = ∑ k : Fin 128, x1 (ix2 p k) * x3 (ix2 k q) :=
    Cert.RowOps.matmul_row_apply (R := 5000) (K := 128) (N := 64) dot_S5000x128_S128x64_S5000x64_1_0_0_1_n_n
      rfl rfl rfl rfl rfl rfl none (truncf (F := Ideal) .bf16 x1 bitsLt_bf16_f32) (truncf (F := Ideal) .bf16 x3 bitsLt_bf16_f32) p q
  have e3 : broadcastTo S5000x64 x4 broadcasts_S1x64_S5000x64 (ix2 p q) = x4 (ix2 (0 : Fin 1) q) :=
    broadcastTo_1b_ab_apply (a := 5000) (b := 64) x4 broadcasts_S1x64_S5000x64 p q
  unfold k0_pay1
  rw [shapeCast_self x0, shapeCast_self x4]
  exact congrArg₂ max (congrArg₂ (· + ·) (congrArg₂ (· + ·) e1 e2) e3) Ideal.ofBits_zero_f32

variable (V : (c : Dev nD) → (b : Ref sig .tc) → Buf (Elt Ideal) ((c : Thread nD τ).loc b))

/-- The offset every access of the body and every rectangle of a whole buffer sits at. -/
theorem zero_off : (![0, 0] : Fin 2 → Nat) = fun _ => 0 := funext fun a => by fin_cases a <;> rfl

/-- The index maps over the ten grid points: the two row-blocked inputs and the output sit at block `(t, 0)`, the two
    weights and the bias at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := lt_of_lt_of_eq t.isLt N_0

/-- Row `p` of block `t` is row `5000 t + p` of the array. -/
def row (t : Fin cfg0.N) (p : Fin 5000) : Fin 50000 :=
  ⟨t.val * 5000 + p.val, by have := point_lt t; have := p.isLt; omega⟩

theorem emb_agg (t : Fin cfg0.N) (p : Fin 5000) (k : Fin 128) :
    ((cfg0.win 0).blk t).view.emb (ix2 p k) = ix2 (row t p) k := by
  obtain ⟨e0, e1, -⟩ := block_index t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_self (t : Fin cfg0.N) (p : Fin 5000) (k : Fin 128) :
    ((cfg0.win 1).blk t).view.emb (ix2 p k) = ix2 (row t p) k := by
  obtain ⟨-, -, e0, e1, -⟩ := block_index t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

theorem emb_wl (t : Fin cfg0.N) (k : Fin 128) (q : Fin 64) :
    ((cfg0.win 2).blk t).view.emb (ix2 k q) = ix2 k q := by
  obtain ⟨-, -, -, -, e0, e1, -⟩ := block_index t
  funext a; apply Fin.ext
  match a with
  | ⟨0, _⟩ => show win0_2.index t (0 : Fin 2) * 128 + 1 * k.val = k.val; omega
  | ⟨1, _⟩ => show win0_2.index t (1 : Fin 2) * 64 + 1 * q.val = q.val; omega

theorem emb_wr (t : Fin cfg0.N) (k : Fin 128) (q : Fin 64) :
    ((cfg0.win 3).blk t).view.emb (ix2 k q) = ix2 k q := by
  obtain ⟨-, -, -, -, -, -, e0, e1, -⟩ := block_index t
  funext a; apply Fin.ext
  match a with
  | ⟨0, _⟩ => show win0_3.index t (0 : Fin 2) * 128 + 1 * k.val = k.val; omega
  | ⟨1, _⟩ => show win0_3.index t (1 : Fin 2) * 64 + 1 * q.val = q.val; omega

theorem emb_bias (t : Fin cfg0.N) (q : Fin 64) :
    ((cfg0.win 4).blk t).view.emb (ix2 (0 : Fin 1) q) = ix2 (0 : Fin 1) q := by
  obtain ⟨-, -, -, -, -, -, -, -, e0, e1, -⟩ := block_index t
  funext a; apply Fin.ext
  match a with
  | ⟨0, _⟩ => show win0_4.index t (0 : Fin 2) * 1 + 1 * 0 = 0; omega
  | ⟨1, _⟩ => show win0_4.index t (1 : Fin 2) * 64 + 1 * q.val = q.val; omega

theorem emb_out (t : Fin cfg0.N) (p : Fin 5000) (q : Fin 64) :
    ((cfg0.win 5).blk t).view.emb (ix2 p q) = ix2 (row t p) q := by
  obtain ⟨-, -, -, -, -, -, -, -, -, -, e0, e1⟩ := block_index t
  funext a; apply Fin.ext
  match a with
  | ⟨0, _⟩ => show win0_5.index t (0 : Fin 2) * 5000 + 1 * p.val = t.val * 5000 + p.val; omega
  | ⟨1, _⟩ => show win0_5.index t (1 : Fin 2) * 64 + 1 * q.val = q.val; omega

/-- What grid point `t` writes back is block `t` of the layer's function of the five arrays as the region found them. -/
theorem flushed_eq (c : Dev nD) (t : Fin cfg0.N) :
    (dat0 (F := Ideal) V c).flushed 5 t = ((cfg0.win 5).blk t).view.read (Elt Ideal)
      (Cert.Sage.linRelu (R := 50000) (K := 128) (N := 64) (V c main_v22) (V c main_arg0) (V c main_arg2) (V c main_arg4) (V c main_v23)) := by
  show (cfg0.win 5).cut (grid0.coords t) ((dat0 V c).after 5 t) = _
  rw [after0_5]
  unfold out0_5
  rw [View.canon_unit_zero zero_off]
  simp only [View.ld_unit_zero (S := S5000x128) zero_off, View.ld_unit_zero (S := S128x64) zero_off, View.ld_unit_zero (S := S1x64) zero_off]
  funext j
  obtain ⟨p, q, rfl⟩ : ∃ (p : Fin 5000) (q : Fin 64), j = ix2 p q := ⟨j 0, j 1, eq_ix2 j⟩
  refine (pay_apply (iblk0 V c 0 t) (iblk0 V c 1 t) (iblk0 V c 2 t) (iblk0 V c 3 t) (iblk0 V c 4 t) p q).trans ?_
  show _ = Cert.Sage.linRelu (R := 50000) (K := 128) (N := 64) (V c main_v22) (V c main_arg0) (V c main_arg2) (V c main_arg4) (V c main_v23)
      (((cfg0.win 5).blk t).view.emb (ix2 p q))
  rw [emb_out t p q, Cert.Sage.linRelu_apply]
  have h0 : ∀ k : Fin 128, iblk0 V c 0 t (ix2 p k) = V c main_v22 (ix2 (row t p) k) :=
    fun k => congrArg (V c main_v22) (emb_agg t p k)
  have h1 : ∀ k : Fin 128, iblk0 V c 1 t (ix2 p k) = V c main_arg0 (ix2 (row t p) k) :=
    fun k => congrArg (V c main_arg0) (emb_self t p k)
  have h2 : ∀ k : Fin 128, iblk0 V c 2 t (ix2 k q) = V c main_arg2 (ix2 k q) :=
    fun k => congrArg (V c main_arg2) (emb_wl t k q)
  have h3 : ∀ k : Fin 128, iblk0 V c 3 t (ix2 k q) = V c main_arg4 (ix2 k q) :=
    fun k => congrArg (V c main_arg4) (emb_wr t k q)
  have h4 : iblk0 V c 4 t (ix2 (0 : Fin 1) q) = V c main_v23 (ix2 (0 : Fin 1) q) :=
    congrArg (V c main_v23) (emb_bias t q)
  exact congrArg₂ max (congrArg₂ (· + ·) (congrArg₂ (· + ·)
      (Finset.sum_congr rfl fun k _ => congrArg₂ (· * ·) (h0 k) (h2 k))
      (Finset.sum_congr rfl fun k _ => congrArg₂ (· * ·) (h1 k) (h3 k))) h4) rfl

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- Every index of the output array is in some point's block: row `r` is in block `r / 5000`. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 5000 < cfg0.N := lt_of_lt_of_eq (by omega : (i 0).val / 5000 < 10) N_0.symm
  obtain ⟨-, -, -, -, -, -, -, -, -, -, e0, e1⟩ := block_index ⟨(i 0).val / 5000, hN⟩
  have e0' : win0_5.index ⟨(i 0).val / 5000, hN⟩ (0 : Fin 2) = (i 0).val / 5000 := e0
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    omega

/-- After the region, whatever the buffers held when it was entered (`V`): the output array is the layer's function of
    the five input arrays as the region found them. -/
theorem arr (c : Dev nD) :
    (dat0 (F := Ideal) V c).arrAt 5 cfg0.N
      = Cert.Sage.linRelu (R := 50000) (K := 128) (N := 64) (V c main_v22) (V c main_arg0) (V c main_arg2) (V c main_arg4) (V c main_v23) :=
  (dat0 (F := Ideal) V c).arrAt_eq_of_cover 5 _ (fun t _ => flushed_eq V c t) cover

end Cert.KernelIdeal.Layer1

end
-- ==== Proof.Layer2.lean ====
/-
  The second layer's kernel, over its whole output array: as the first layer's, 64 input channels, no clamp.

  The value a grid point stores at a row and a channel of its block is read first over arbitrary blocks, then against
  whole arrays; a point's blocks are rows 5000 t … 5000 t + 4999 of the two feature arrays and the whole of the two
  weights and of the bias row, so what the point writes back is its block of the layer's function of the arrays; the
  ten blocks fill the output array.
-/
import proofs.«172463_j18047452577826_1_alg».proof.Proof.Gen.KernelIdeal.Frame
import proofs.«172463_j18047452577826_1_alg».proof.Proof.Spec
import proofs.«172463_j18047452577826_1_alg».proof.Proof.LibRowOps
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

/-- The body's stored value at row `p`, channel `q` of a block: the block of aggregated features against the first
    weight, plus the block of own features against the second, each summed over the 64 input channels, plus the bias
    row's entry at `q`. (Narrowing to bf16 is the identity on the extended reals; the bias row is broadcast along the rows.) -/
theorem pay_apply (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ix2 p q)
      = ((∑ k : Fin 64, x0 (ix2 p k) * x2 (ix2 k q)) + ∑ k : Fin 64, x1 (ix2 p k) * x3 (ix2 k q)) + x4 (ix2 (0 : Fin 1) q) := by
  have hb : broadcastTo S5000x64 x4 broadcasts_S1x64_S5000x64 (ix2 p q) = x4 (ix2 (0 : Fin 1) q) :=
    broadcastTo_apply x4 broadcasts_S1x64_S5000x64 (ix2 p q) (ix2 (0 : Fin 1) q) fun ax => by
      match ax with
      | ⟨0, _⟩ =>
        show (0 : ℕ) = if (1 : ℕ) = 1 then 0 else p.val
        rw [if_pos rfl]
      | ⟨1, _⟩ =>
        show q.val = if (64 : ℕ) = 1 then 0 else q.val
        rw [if_neg (by decide)]
  unfold k1_pay1
  simp only [matmul, shapeCast_self]
  rw [addf_apply, addf_apply,
    Cert.RowOps.matmul_row_apply dot_S5000x64_S64x64_S5000x64_1_0_0_1_n_n rfl rfl rfl rfl rfl rfl,
    Cert.RowOps.matmul_row_apply dot_S5000x64_S64x64_S5000x64_1_0_0_1_n_n rfl rfl rfl rfl rfl rfl, hb]
  rfl

/-- The same value against whole arrays: when row `p` of the two feature blocks is row `r` of the feature arrays and the
    weight and bias blocks read as the weight and bias arrays, the stored value at `(p, q)` is the layer's function of
    the arrays at `(r, q)`. -/
theorem pay_eq_lin (a x : S50000x64.Idx → EReal) (wl wr : S64x64.Idx → EReal) (b : S1x64.Idx → EReal)
    (x0 x1 : Vec Ideal S5000x64 .f32) (x2 x3 : Vec Ideal S64x64 .f32) (x4 : Vec Ideal S1x64 .f32)
    (p : Fin 5000) (q : Fin 64) (r : Fin 50000)
    (h0 : ∀ k : Fin 64, x0 (ix2 p k) = a (ix2 r k)) (h1 : ∀ k : Fin 64, x1 (ix2 p k) = x (ix2 r k))
    (h2 : ∀ k : Fin 64, x2 (ix2 k q) = wl (ix2 k q)) (h3 : ∀ k : Fin 64, x3 (ix2 k q) = wr (ix2 k q))
    (h4 : x4 (ix2 (0 : Fin 1) q) = b (ix2 (0 : Fin 1) q)) :
    k1_pay1 (F := Ideal) x0 x1 x2 x3 x4 (ix2 p q)
      = Cert.Sage.lin (R := 50000) (K := 64) (N := 64) a x wl wr b (ix2 r q) := by
  refine (pay_apply x0 x1 x2 x3 x4 p q).trans ?_
  refine Eq.trans ?_ (Cert.Sage.lin_apply a x wl wr b r q).symm
  rw [h4]
  congr 1
  congr 1
  · exact Finset.sum_congr rfl fun k _ => by rw [h0 k, h2 k]
  · exact Finset.sum_congr rfl fun k _ => by rw [h1 k, h3 k]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the ten grid points: the two feature windows and the output window sit
    at block row `t`, block column 0; the two weights and the bias row are one block each, at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 400000 in
/-- What grid point `t` writes back is block `t` of the layer's function of the five arrays as the region finds them:
    row `p` of the point's feature blocks is row `5000 t + p` of the feature arrays, and the weight and bias blocks are
    the whole weight and bias arrays. -/
theorem flushed_eq (c : Dev nD) (t : Fin cfg1.N) :
    (dat1 (F := Ideal) V c).flushed 5 t = ((cfg1.win 5).blk t).view.read (Elt Ideal)
      (Cert.Sage.lin (R := 50000) (K := 64) (N := 64) (V c main_v43) (V c main_v24) (V c main_arg5) (V c main_arg7) (V c main_v44)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 (n0 := 5000) (n1 := 64) j⟩
  obtain ⟨e00, e01, e10, e11, e20, e21, e30, e31, e40, e41, e50, e51⟩ := idx_facts t
  have ht : t.val < 10 := lt_of_lt_of_eq t.isLt N_1
  have hp : p.val < 5000 := p.isLt
  have hq : q.val < 64 := q.isLt
  have hi : ((cfg1.win 5).blk t).view.emb (ix2 p q) = ix2 (⟨5000 * t.val + p.val, by omega⟩ : Fin 50000) q := by
    funext a; apply Fin.ext
    match a with
    | ⟨0, _⟩ => show win1_5.index t (0 : Fin 2) * 5000 + 1 * p.val = 5000 * t.val + p.val; omega
    | ⟨1, _⟩ => show win1_5.index t (1 : Fin 2) * 64 + 1 * q.val = q.val; omega
  show k1_pay1 (F := Ideal) (iblk1 V c 0 t) (iblk1 V c 1 t) (iblk1 V c 2 t) (iblk1 V c 3 t) (iblk1 V c 4 t) (ix2 p q)
      = Cert.Sage.lin (R := 50000) (K := 64) (N := 64) (V c main_v43) (V c main_v24) (V c main_arg5) (V c main_arg7) (V c main_v44)
          (((cfg1.win 5).blk t).view.emb (ix2 p q))
  refine Eq.trans ?_ (congrArg (Cert.Sage.lin (R := 50000) (K := 64) (N := 64) (V c main_v43) (V c main_v24) (V c main_arg5) (V c main_arg7) (V c main_v44)) hi).symm
  refine pay_eq_lin (V c main_v43) (V c main_v24) (V c main_arg5) (V c main_arg7) (V c main_v44)
    (iblk1 V c 0 t) (iblk1 V c 1 t) (iblk1 V c 2 t) (iblk1 V c 3 t) (iblk1 V c 4 t) p q
    (⟨5000 * t.val + p.val, by omega⟩ : Fin 50000) (fun k => ?_) (fun k => ?_) (fun k => ?_) (fun k => ?_) ?_
  · have hk : k.val < 64 := k.isLt
    show V c main_v43 (((cfg1.win 0).blk t).view.emb (ix2 p k)) = V c main_v43 (ix2 (⟨5000 * t.val + p.val, by omega⟩ : Fin 50000) k)
    refine congrArg (V c main_v43) (funext fun a => Fin.ext ?_)
    match a with
    | ⟨0, _⟩ => show win1_0.index t (0 : Fin 2) * 5000 + 1 * p.val = 5000 * t.val + p.val; omega
    | ⟨1, _⟩ => show win1_0.index t (1 : Fin 2) * 64 + 1 * k.val = k.val; omega
  · have hk : k.val < 64 := k.isLt
    show V c main_v24 (((cfg1.win 1).blk t).view.emb (ix2 p k)) = V c main_v24 (ix2 (⟨5000 * t.val + p.val, by omega⟩ : Fin 50000) k)
    refine congrArg (V c main_v24) (funext fun a => Fin.ext ?_)
    match a with
    | ⟨0, _⟩ => show win1_1.index t (0 : Fin 2) * 5000 + 1 * p.val = 5000 * t.val + p.val; omega
    | ⟨1, _⟩ => show win1_1.index t (1 : Fin 2) * 64 + 1 * k.val = k.val; omega
  · have hk : k.val < 64 := k.isLt
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · have hk : k.val < 64 := k.isLt
    show V c main_arg7 (((cfg1.win 3).blk t).view.emb (ix2 k q)) = V c main_arg7 (ix2 k q)
    refine congrArg (V c main_arg7) (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · show V c main_v44 (((cfg1.win 4).blk t).view.emb (ix2 (0 : Fin 1) q)) = V c main_v44 (ix2 (0 : Fin 1) q)
    refine congrArg (V c main_v44) (funext fun a => Fin.ext ?_)
    match a with
    | ⟨0, _⟩ => show win1_4.index t (0 : Fin 2) * 1 + 1 * (0 : ℕ) = 0; omega
    | ⟨1, _⟩ => show win1_4.index t (1 : Fin 2) * 64 + 1 * q.val = q.val; omega

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v45).slice (win1_5.rect t)).set ↔ _
  rw [View.set_slice_whole, Rect.mem_set_unit]
  exact Iff.rfl

/-- The ten blocks of 5000 rows fill the array: row `r` is in the block of point `r / 5000`, which writes back. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, htv⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After the region, whatever the buffers held when it was entered (`V`): the output array is the layer's function of
    the five input arrays as the region found them. -/
theorem arr (c : Dev nD) :
    (dat1 (F := Ideal) V c).arrAt 5 cfg1.N
      = Cert.Sage.lin (R := 50000) (K := 64) (N := 64) (V c main_v43) (V c main_v24) (V c main_arg5) (V c main_arg7) (V c main_v44) :=
  (dat1 (F := Ideal) V c).arrAt_eq_of_cover 5
    (Cert.Sage.lin (R := 50000) (K := 64) (N := 64) (V c main_v43) (V c main_v24) (V c main_arg5) (V c main_arg7) (V c main_v44))
    (fun t _ => flushed_eq V c t) cover

end Cert.KernelIdeal.Layer2

end
-- ==== Proof.RefLayers.lean ====
/-
  The reference's two layers are the layer function of the specification. The reference adds the bias to the first
  product and then the second product; the specification adds the two products and then the bias. Addition of extended
  reals is commutative and associative (also at the infinities), so the two agree at every index with no condition on the
  inputs. A `dot_general` over one contracted axis is the sum over that axis; the bias made a row and broadcast along the
  nodes reads the bias at the channel.
-/
import proofs.«172463_j18047452577826_1_alg».proof.Proof.Gen.ReferenceIdeal.Read
import proofs.«172463_j18047452577826_1_alg».proof.Proof.Spec
import Idealize.ShloMosaic.Lib.Pipeline.Value
import Idealize.ShloMosaic.PureOps.Ideal.Laws
import Idealize.ShloMosaic.Lib.ValueLayout

noncomputable section

open scoped BigOperators

namespace Cert.RefSide

open Cert.ReferenceIdeal Cert.ReferenceIdeal.Read Idealize.ShloMosaic Idealize.ShloMosaic.ValueIdx

/-- The left index of the first layer's first product at row `r`: row `r`, contracted position `k`. -/
private theorem lidx_v23 (r : Fin 50000) (j : Fin 64) (k : Fin 128) : lidx_main_v23 (ix2 r j) k = ix2 r k :=
  funext fun a => Fin.ext (by match a with | ⟨0, _⟩ => rfl | ⟨1, _⟩ => rfl)

/-- The right index of the first layer's first product at column `j`: contracted position `k`, column `j`. -/
private theorem ridx_v23 (r : Fin 50000) (j : Fin 64) (k : Fin 128) : ridx_main_v23 (ix2 r j) k = ix2 k j :=
  funext fun a => Fin.ext (by match a with | ⟨0, _⟩ => rfl | ⟨1, _⟩ => rfl)

/-- The same for the first layer's second product. -/
private theorem lidx_v27 (r : Fin 50000) (j : Fin 64) (k : Fin 128) : lidx_main_v27 (ix2 r j) k = ix2 r k :=
  funext fun a => Fin.ext (by match a with | ⟨0, _⟩ => rfl | ⟨1, _⟩ => rfl)

private theorem ridx_v27 (r : Fin 50000) (j : Fin 64) (k : Fin 128) : ridx_main_v27 (ix2 r j) k = ix2 k j :=
  funext fun a => Fin.ext (by match a with | ⟨0, _⟩ => rfl | ⟨1, _⟩ => rfl)

/-- The bias broadcast along the nodes reads the bias vector at the channel. -/
private theorem idx_bias1 (r : Fin 50000) (j : Fin 64) : idx_main_v24 (idx_main_v25 (ix2 r j)) = ix1 j :=
  funext fun a => Fin.ext (by match a with | ⟨0, _⟩ => rfl)

/-- A vector of 64 entries cast to one row of 64 reads, at column `j` of that row, the vector's entry `j`: the two
    have the same row-major position. -/
private theorem bias_row {α : Type} (x : S64.Idx → α) (hc : S64.ShapeCasts S1x64) (j : Fin 64) :
    shapeCast S1x64 x hc (ix2 (0 : Fin 1) j) = x (ix1 j) :=
  shapeCast_apply x hc (ix2 (0 : Fin 1) j) (ix1 j) (by
    rw [Shape.rowMajor_val_two, Shape.rowMajor_val_one]
    show j.val = 0 * 64 + j.val
    omega)

/-- The first layer: the specification's clamped layer of the reference's mean aggregate `val_main_v22`, the node
    features, the two weights and the bias as a row is the reference's `val_main_v29`. The bias row is the bias vector
    under any cast of [64] to [1, 64]. -/
theorem layer1_ref (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal))
    (hc : S64.ShapeCasts S1x64) :
    Cert.Sage.linRelu (R := 50000) (K := 128) (N := 64) (val_main_v22 (F := Ideal) x0 x1) x0 x2 x4 (shapeCast S1x64 x3 hc)
      = val_main_v29 (F := Ideal) x0 x1 x2 x3 x4 := by
  funext i
  obtain ⟨r, j, rfl⟩ : ∃ (r : Fin 50000) (j : Fin 64), i = ix2 r j := ⟨i 0, i 1, eq_ix2 i⟩
  rw [Cert.Sage.linRelu_apply]
  rw [val_main_v29_apply, val_main_v28_apply, val_main_v26_apply, val_main_v23_apply, val_main_v25_apply,
    val_main_v24_apply, val_main_v27_apply, val_main_call0_v0_apply, val_main_call0_cst_apply]
  simp only [lidx_v23, ridx_v23, lidx_v27, ridx_v27, idx_bias1, bias_row]
  rw [Ideal.maximumf_def, Ideal.addf_def, Ideal.addf_def, Ideal.ofBits_def, Ideal.ofBits_zero_f32]
  rw [add_right_comm]

/-- The left and right indices of the second layer's two products, contracted over 64 positions. -/
private theorem lidx_v49 (r : Fin 50000) (j : Fin 64) (k : Fin 64) : lidx_main_v49 (ix2 r j) k = ix2 r k :=
  funext fun a => Fin.ext (by match a with | ⟨0, _⟩ => rfl | ⟨1, _⟩ => rfl)

private theorem ridx_v49 (r : Fin 50000) (j : Fin 64) (k : Fin 64) : ridx_main_v49 (ix2 r j) k = ix2 k j :=
  funext fun a => Fin.ext (by match a with | ⟨0, _⟩ => rfl | ⟨1, _⟩ => rfl)

private theorem lidx_v53 (r : Fin 50000) (j : Fin 64) (k : Fin 64) : lidx_main_v53 (ix2 r j) k = ix2 r k :=
  funext fun a => Fin.ext (by match a with | ⟨0, _⟩ => rfl | ⟨1, _⟩ => rfl)

private theorem ridx_v53 (r : Fin 50000) (j : Fin 64) (k : Fin 64) : ridx_main_v53 (ix2 r j) k = ix2 k j :=
  funext fun a => Fin.ext (by match a with | ⟨0, _⟩ => rfl | ⟨1, _⟩ => rfl)

/-- The second layer's bias broadcast along the nodes reads the bias vector at the channel. -/
private theorem idx_bias2 (r : Fin 50000) (j : Fin 64) : idx_main_v50 (idx_main_v51 (ix2 r j)) = ix1 j :=
  funext fun a => Fin.ext (by match a with | ⟨0, _⟩ => rfl)

/-- The second layer: the specification's layer of the reference's second mean aggregate `val_main_v48`, the first
    layer's result `val_main_v29`, the two weights and the bias as a row is the reference's `val_main_v54`. -/
theorem layer2_ref (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (hc : S64.ShapeCasts S1x64) :
    Cert.Sage.lin (R := 50000) (K := 64) (N := 64) (val_main_v48 (F := Ideal) x0 x1 x2 x3 x4) (val_main_v29 (F := Ideal) x0 x1 x2 x3 x4) x5 x7 (shapeCast S1x64 x6 hc)
      = val_main_v54 (F := Ideal) x0 x1 x2 x3 x4 x5 x6 x7 := by
  funext i
  obtain ⟨r, j, rfl⟩ : ∃ (r : Fin 50000) (j : Fin 64), i = ix2 r j := ⟨i 0, i 1, eq_ix2 i⟩
  rw [Cert.Sage.lin_apply]
  rw [val_main_v54_apply, val_main_v52_apply, val_main_v49_apply, val_main_v51_apply, val_main_v50_apply,
    val_main_v53_apply]
  simp only [lidx_v49, ridx_v49, lidx_v53, ridx_v53, idx_bias2, bias_row]
  rw [Ideal.addf_def, Ideal.addf_def]
  rw [add_right_comm]

end Cert.RefSide

end
-- ==== Proof.KStages.lean ====
/-
  The kernel program's buffers up to the decoder's entry, as the reference's stages of the argument arrays.

  Between its kernels the program runs the same host operations as the reference: the source and destination node of
  every edge (rows 0 and 1 of the edge array, negative indices wrapped by 50000) and the mean aggregate (gather the
  sources' rows, add them up per destination, divide by the clamped count of incoming edges). So every boundary is read
  as the reference's stage of the same name: the first kernel enters at the reference's first mean aggregate and leaves
  the reference's clamped first layer; the second enters at the second mean aggregate of that and leaves the
  reference's second layer, the node embeddings.
-/
import proofs.«172463_j18047452577826_1_alg».proof.Proof.Gen.KernelIdeal.Frame
import proofs.«172463_j18047452577826_1_alg».proof.Proof.Gen.ReferenceIdeal.Read
import proofs.«172463_j18047452577826_1_alg».proof.Proof.Layer1
import proofs.«172463_j18047452577826_1_alg».proof.Proof.Layer2
import proofs.«172463_j18047452577826_1_alg».proof.Proof.RefLayers

set_option maxRecDepth 16384
set_option maxHeartbeats 1000000

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## Before the first kernel -/

/-- The edges' sources. -/
theorem src1 (c : Dev nD) : (W1 m ρ c (Proc.devRef .tc main_v1) : S800000.Idx → BitVec 32) = Cert.ReferenceIdeal.Read.val_main_v1 (F := Ideal) (m ((c : Thread nD τ).loc main_arg1)) := by
  show StableHlo.after hostOps0 (W0 m ρ c) (Proc.devRef .tc main_v1) = _
  after_results_simp
  rfl
/-- The edges' destinations. -/
theorem dst1 (c : Dev nD) : (W1 m ρ c (Proc.devRef .tc main_v3) : S800000.Idx → BitVec 32) = Cert.ReferenceIdeal.Read.val_main_v3 (F := Ideal) (m ((c : Thread nD τ).loc main_arg1)) := by
  show StableHlo.after hostOps0 (W0 m ρ c) (Proc.devRef .tc main_v3) = _
  after_results_simp
  rfl
/-- The first mean aggregate. -/
theorem agg1 (c : Dev nD) : (V1 m ρ c main_v22 : S50000x128.Idx → EReal) = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl
/-- The first bias as a row. -/
theorem bias1 (c : Dev nD) : (V1 m ρ c main_v23 : S1x64.Idx → EReal) = shapeCast S1x64 (m ((c : Thread nD τ).loc main_arg3)) shapeCasts_S64_S1x64 := by
  show StableHlo.after hostOps0 (W0 m ρ c) (Proc.devRef .tc main_v23) = _
  after_results_simp
  rfl
/-- Argument 0 is untouched by the first host stretch. -/
theorem arg0_1 (c : Dev nD) : W1 m ρ c (Proc.devRef .tc main_arg0) = (m ((c : Thread nD τ).loc main_arg0)) := by
  show StableHlo.after hostOps0 (W0 m ρ c) (Proc.devRef .tc main_arg0) = _
  after_results_simp
/-- Argument 2 is untouched by the first host stretch. -/
theorem arg2_1 (c : Dev nD) : W1 m ρ c (Proc.devRef .tc main_arg2) = (m ((c : Thread nD τ).loc main_arg2)) := by
  show StableHlo.after hostOps0 (W0 m ρ c) (Proc.devRef .tc main_arg2) = _
  after_results_simp
/-- Argument 4 is untouched by the first host stretch. -/
theorem arg4_1 (c : Dev nD) : W1 m ρ c (Proc.devRef .tc main_arg4) = (m ((c : Thread nD τ).loc main_arg4)) := by
  show StableHlo.after hostOps0 (W0 m ρ c) (Proc.devRef .tc main_arg4) = _
  after_results_simp
/-- Argument 5 is untouched by the first host stretch. -/
theorem arg5_1 (c : Dev nD) : W1 m ρ c (Proc.devRef .tc main_arg5) = (m ((c : Thread nD τ).loc main_arg5)) := by
  show StableHlo.after hostOps0 (W0 m ρ c) (Proc.devRef .tc main_arg5) = _
  after_results_simp
/-- Argument 6 is untouched by the first host stretch. -/
theorem arg6_1 (c : Dev nD) : W1 m ρ c (Proc.devRef .tc main_arg6) = (m ((c : Thread nD τ).loc main_arg6)) := by
  show StableHlo.after hostOps0 (W0 m ρ c) (Proc.devRef .tc main_arg6) = _
  after_results_simp
/-- Argument 7 is untouched by the first host stretch. -/
theorem arg7_1 (c : Dev nD) : W1 m ρ c (Proc.devRef .tc main_arg7) = (m ((c : Thread nD τ).loc main_arg7)) := by
  show StableHlo.after hostOps0 (W0 m ρ c) (Proc.devRef .tc main_arg7) = _
  after_results_simp

/-! ## After the first kernel -/

/-- The first kernel leaves the reference's first layer. -/
theorem h2 (c : Dev nD) : (W2 m ρ c (Proc.devRef .tc main_v24) : S50000x64.Idx → EReal)
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Cert.KernelIdeal.Layer1.arr]
  rw [show V1 m ρ c main_v22 = _ from agg1 m ρ c, show V1 m ρ c main_v23 = _ from bias1 m ρ c,
    show V1 m ρ c main_arg0 = _ from arg0_1 m ρ c, show V1 m ρ c main_arg2 = _ from arg2_1 m ρ c,
    show V1 m ρ c main_arg4 = _ from arg4_1 m ρ c]
  exact Cert.RefSide.layer1_ref _ _ _ _ _ _
theorem src2 (c : Dev nD) : (W2 m ρ c (Proc.devRef .tc main_v1) : S800000.Idx → BitVec 32) = Cert.ReferenceIdeal.Read.val_main_v1 (F := Ideal) (m ((c : Thread nD τ).loc main_arg1)) :=
  (W2_of_ne m ρ c main_v1 (by decide)).trans (src1 m ρ c)
theorem dst2 (c : Dev nD) : (W2 m ρ c (Proc.devRef .tc main_v3) : S800000.Idx → BitVec 32) = Cert.ReferenceIdeal.Read.val_main_v3 (F := Ideal) (m ((c : Thread nD τ).loc main_arg1)) :=
  (W2_of_ne m ρ c main_v3 (by decide)).trans (dst1 m ρ c)
theorem arg5_2 (c : Dev nD) : W2 m ρ c (Proc.devRef .tc main_arg5) = (m ((c : Thread nD τ).loc main_arg5)) :=
  (W2_of_ne m ρ c main_arg5 (by decide)).trans (arg5_1 m ρ c)
theorem arg6_2 (c : Dev nD) : W2 m ρ c (Proc.devRef .tc main_arg6) = (m ((c : Thread nD τ).loc main_arg6)) :=
  (W2_of_ne m ρ c main_arg6 (by decide)).trans (arg6_1 m ρ c)
theorem arg7_2 (c : Dev nD) : W2 m ρ c (Proc.devRef .tc main_arg7) = (m ((c : Thread nD τ).loc main_arg7)) :=
  (W2_of_ne m ρ c main_arg7 (by decide)).trans (arg7_1 m ρ c)

/-! ## Before the second kernel -/

/-- The second mean aggregate, of the first layer's result. -/
theorem agg3 (c : Dev nD) : (V3 m ρ c main_v43 : S50000x64.Idx → EReal) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v43) = _
  after_results_simp
  rw [h2 m ρ c, src2 m ρ c, dst2 m ρ c]
  rfl
theorem h3 (c : Dev nD) : (V3 m ρ c main_v24 : S50000x64.Idx → EReal) = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  after_results_simp
  exact h2 m ρ c
/-- The second bias as a row. -/
theorem bias3 (c : Dev nD) : (V3 m ρ c main_v44 : S1x64.Idx → EReal) = shapeCast S1x64 (m ((c : Thread nD τ).loc main_arg6)) shapeCasts_S64_S1x64 := by
  show StableHlo.after hostOps1 (W2 m ρ c) (Proc.devRef .tc main_v44) = _
  after_results_simp
  rw [arg6_2 m ρ c]
  rfl
theorem arg5_3 (c : Dev nD) : V3 m ρ c main_arg5 = (m ((c : Thread nD τ).loc main_arg5)) := by
  show StableHlo.after hostOps1 (W2 m ρ c) (Proc.devRef .tc main_arg5) = _
  after_results_simp
  exact arg5_2 m ρ c
theorem arg7_3 (c : Dev nD) : V3 m ρ c main_arg7 = (m ((c : Thread nD τ).loc main_arg7)) := by
  show StableHlo.after hostOps1 (W2 m ρ c) (Proc.devRef .tc main_arg7) = _
  after_results_simp
  exact arg7_2 m ρ c
theorem src3 (c : Dev nD) : (W3 m ρ c (Proc.devRef .tc main_v1) : S800000.Idx → BitVec 32) = Cert.ReferenceIdeal.Read.val_main_v1 (F := Ideal) (m ((c : Thread nD τ).loc main_arg1)) := by
  show StableHlo.after hostOps1 (W2 m ρ c) (Proc.devRef .tc main_v1) = _
  after_results_simp
  exact src2 m ρ c
theorem dst3 (c : Dev nD) : (W3 m ρ c (Proc.devRef .tc main_v3) : S800000.Idx → BitVec 32) = Cert.ReferenceIdeal.Read.val_main_v3 (F := Ideal) (m ((c : Thread nD τ).loc main_arg1)) := by
  show StableHlo.after hostOps1 (W2 m ρ c) (Proc.devRef .tc main_v3) = _
  after_results_simp
  exact dst2 m ρ c

/-! ## After the second kernel -/

/-- The second kernel leaves the reference's second layer: the node embeddings. -/
theorem z4 (c : Dev nD) : (W4 m ρ c (Proc.devRef .tc main_v45) : S50000x64.Idx → EReal)
    = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Cert.KernelIdeal.Layer2.arr]
  rw [show V3 m ρ c main_v43 = _ from agg3 m ρ c, show V3 m ρ c main_v24 = _ from h3 m ρ c,
    show V3 m ρ c main_v44 = _ from bias3 m ρ c, show V3 m ρ c main_arg5 = _ from arg5_3 m ρ c,
    show V3 m ρ c main_arg7 = _ from arg7_3 m ρ c]
  exact Cert.RefSide.layer2_ref _ _ _ _ _ _ _ _ _
theorem src4 (c : Dev nD) : (W4 m ρ c (Proc.devRef .tc main_v1) : S800000.Idx → BitVec 32) = Cert.ReferenceIdeal.Read.val_main_v1 (F := Ideal) (m ((c : Thread nD τ).loc main_arg1)) :=
  (W4_of_ne m ρ c main_v1 (by decide)).trans (src3 m ρ c)
theorem dst4 (c : Dev nD) : (W4 m ρ c (Proc.devRef .tc main_v3) : S800000.Idx → BitVec 32) = Cert.ReferenceIdeal.Read.val_main_v3 (F := Ideal) (m ((c : Thread nD τ).loc main_arg1)) :=
  (W4_of_ne m ρ c main_v3 (by decide)).trans (dst3 m ρ c)

end Cert.KernelIdeal.Chain

end
-- ==== Proof.Decoder.lean ====
/-
  The decoder kernel, over its whole output array. The 6336 groups of 128 edges are cut into 66 blocks of 96 groups; at a
  block the body multiplies the two blocks of embeddings entry by entry and sums over the 64 channels. An entry of the
  result depends on that (group, edge) of the two inputs only, so the 66 blocks written back are the 66 group ranges of
  ONE function of the whole arrays.
-/
import proofs.«172463_j18047452577826_1_alg».proof.Proof.Gen.KernelIdeal.Frame
import proofs.«172463_j18047452577826_1_alg».proof.Proof.Spec
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.Decoder

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as constant functions. -/
theorem zero3 : (![0, 0, 0] : Fin 3 → Nat) = fun _ => 0 := funext fun a => by fin_cases a <;> rfl
theorem zero2 : (![0, 0] : Fin 2 → Nat) = fun _ => 0 := funext fun a => by fin_cases a <;> rfl

/-- Summing a [96, 128, 64] block over its last axis: the index over (group `r`, edge `l`) with channel `k` inserted
    is (`r`, `l`, `k`). -/
theorem lift_channel (r : Fin 96) (l : Fin 128) (k : Fin 64) :
    reduces_S96x128x64_S96x128.lift (ix2 r l) k = ix3 r l k := by
  funext c; apply Fin.ext
  match c with
  | ⟨0, _⟩ => rfl
  | ⟨1, _⟩ => rfl
  | ⟨2, _⟩ => rfl

/-- The body's stored value at (group `r`, edge `l`) of a block: the two casts keep the shape, the product is taken
    entry by entry, and the reduction over the last axis is the sum over the 64 channels. -/
theorem payload_apply (x0 x1 : Vec Ideal S96x128x64 .f32) (r : Fin 96) (l : Fin 128) :
    k2_pay1 (F := Ideal) x0 x1 (ix2 r l) = ∑ k : Fin 64, x0 (ix3 r l k) * x1 (ix3 r l k) := by
  unfold k2_pay1
  dsimp only
  rw [shapeCast_self, shapeCast_self]
  refine (Ideal.multiReduction_add_single (mulf x0 x1) 0x00000000#32 reduces_S96x128x64_S96x128 (.inl rfl) rfl (ix2 r l)).trans ?_
  refine Finset.sum_congr rfl fun k _ => ?_
  rw [lift_channel r l k]
  rfl

/-- The index maps over the 66 points: at point `t` every window's block is number `t` along the groups and number 0
    along the other axes. -/
theorem block_index : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0 :=
  (by decide +kernel : ∀ t : Fin grid2.N, _)

/-- What point `t` writes back is block `t` of the channel sums of the whole arrays: entry (`r`, `l`) of the block is
    group `96 t + r`, edge `l` of the output, and the two input blocks hold that group's embeddings. -/
theorem written_back (c : Dev nD) (t : Fin cfg2.N) :
    (dat2 (F := Ideal) V c).flushed 2 t
      = ((cfg2.win 2).blk t).view.read (Elt Ideal)
          (Cert.Sage.dots (R := 6336) (L := 128) (K := 64) (V c main_v62) (V c main_v63)) := by
  show (cfg2.win 2).cut (grid2.coords t) ((dat2 V c).after 2 t) = _
  rw [after2_2]
  unfold out2_2
  rw [View.canon_unit_zero zero2]
  simp only [View.ld_unit_zero (S := S96x128x64) zero3]
  refine funext fun (j : S96x128.Idx) => ?_
  obtain ⟨r, l, rfl⟩ : ∃ (r : Fin 96) (l : Fin 128), j = ix2 r l := ⟨j 0, j 1, eq_ix2 j⟩
  show k2_pay1 (F := Ideal) (iblk2 V c 0 t) (iblk2 V c 1 t) (ix2 r l)
    = Cert.Sage.dots (R := 6336) (L := 128) (K := 64) (V c main_v62) (V c main_v63) (((cfg2.win 2).blk t).view.emb (ix2 r l))
  refine (payload_apply (iblk2 V c 0 t) (iblk2 V c 1 t) r l).trans ?_
  obtain ⟨e00, e01, e02, e10, e11, e12, e20, e21⟩ := block_index t
  have ht : t.val < 66 := lt_of_lt_of_eq t.isLt N_2
  have hi : ((cfg2.win 2).blk t).view.emb (ix2 r l) = ix2 (⟨96 * t.val + r.val, by omega⟩ : Fin 6336) l := by
    funext a; apply Fin.ext
    match a with
    | ⟨0, _⟩ => show win2_2.index t (0 : Fin 2) * 96 + 1 * r.val = 96 * t.val + r.val; omega
    | ⟨1, _⟩ => show win2_2.index t (1 : Fin 2) * 128 + 1 * l.val = l.val; omega
  rw [hi, Cert.Sage.dots_apply]
  refine Finset.sum_congr rfl fun k _ => ?_
  have h0 : iblk2 V c 0 t (ix3 r l k) = V c main_v62 (ix3 (⟨96 * t.val + r.val, by omega⟩ : Fin 6336) l k) := by
    show V c main_v62 (((cfg2.win 0).blk t).view.emb (ix3 r l k)) = _
    refine congrArg _ ?_
    funext a; apply Fin.ext
    match a with
    | ⟨0, _⟩ => show win2_0.index t (0 : Fin 3) * 96 + 1 * r.val = 96 * t.val + r.val; omega
    | ⟨1, _⟩ => show win2_0.index t (1 : Fin 3) * 128 + 1 * l.val = l.val; omega
    | ⟨2, _⟩ => show win2_0.index t (2 : Fin 3) * 64 + 1 * k.val = k.val; omega
  have h1 : iblk2 V c 1 t (ix3 r l k) = V c main_v63 (ix3 (⟨96 * t.val + r.val, by omega⟩ : Fin 6336) l k) := by
    show V c main_v63 (((cfg2.win 1).blk t).view.emb (ix3 r l k)) = _
    refine congrArg _ ?_
    funext a; apply Fin.ext
    match a with
    | ⟨0, _⟩ => show win2_1.index t (0 : Fin 3) * 96 + 1 * r.val = 96 * t.val + r.val; omega
    | ⟨1, _⟩ => show win2_1.index t (1 : Fin 3) * 128 + 1 * l.val = l.val; omega
    | ⟨2, _⟩ => show win2_1.index t (2 : Fin 3) * 64 + 1 * k.val = k.val; omega
  rw [h0, h1]

/-- An index of the output array is in point `t`'s block iff each coordinate is in the block's range on its axis. -/
theorem mem_block (t : Fin cfg2.N) (i : S6336x128.Idx) :
    i ∈ ((cfg2.win 2).blk t).view.set
      ↔ ∀ a : Fin 2, win2_2.index t a * S96x128.size a ≤ (i a).val ∧ (i a).val < win2_2.index t a * S96x128.size a + S96x128.size a := by
  show i ∈ ((View.whole main_v64).slice (win2_2.rect t)).set ↔ _
  rw [View.set_slice_whole, Rect.mem_set_unit]
  exact Iff.rfl

/-- The 66 blocks cover the output array: group `g` lies in block `g / 96`, and 66 · 96 = 6336. -/
theorem blocks_cover (i : S6336x128.Idx) :
    ∃ t : Fin cfg2.N, (cfg2.win 2).flush t = true ∧ i ∈ ((cfg2.win 2).blk t).view.set := by
  have hi0 : (i 0).val < 6336 := (i 0).isLt
  have hi1 : (i 1).val < 128 := (i 1).isLt
  have hN : cfg2.N = 66 := N_2
  have hq : (i 0).val / 96 < cfg2.N := by rw [hN]; omega
  obtain ⟨-, -, -, -, -, -, e20, e21⟩ := block_index ⟨(i 0).val / 96, hq⟩
  have e20' : win2_2.index ⟨(i 0).val / 96, hq⟩ (0 : Fin 2) = (i 0).val / 96 := e20
  refine ⟨⟨(i 0).val / 96, hq⟩, flush2_2 _, ?_⟩
  rw [mem_block]
  intro a
  match a with
  | ⟨0, _⟩ =>
    show win2_2.index ⟨(i 0).val / 96, hq⟩ (0 : Fin 2) * 96 ≤ (i 0).val ∧ (i 0).val < win2_2.index ⟨(i 0).val / 96, hq⟩ (0 : Fin 2) * 96 + 96
    rw [e20']; omega
  | ⟨1, _⟩ =>
    show win2_2.index ⟨(i 0).val / 96, hq⟩ (1 : Fin 2) * 128 ≤ (i 1).val ∧ (i 1).val < win2_2.index ⟨(i 0).val / 96, hq⟩ (1 : Fin 2) * 128 + 128
    rw [e21]; omega

/-- After the region, whatever the buffers held when it was entered (`V`): the output array is the channel sum of the
    products of the two input arrays as the region found them. -/
theorem arr (c : Dev nD) :
    (dat2 (F := Ideal) V c).arrAt 2 cfg2.N
      = Cert.Sage.dots (R := 6336) (L := 128) (K := 64) (V c main_v62) (V c main_v63) :=
  (dat2 (F := Ideal) V c).arrAt_eq_of_cover 2 _ (fun t _ => written_back V c t) blocks_cover

end Cert.KernelIdeal.Decoder

end
-- ==== Proof.RefDecode.lean ====
/-
  The decoder's layout. The kernel's program cuts the 800000 edges into 6250 groups of 128, pads the groups to 6336 with
  86 groups of a padding value, sums the products over the channels, flattens the 6336 × 128 results and keeps the first
  800000. Edge `e` is entry `e % 128` of group `e / 128 < 6250`, which is inside the unpadded part, so what is kept is,
  at edge `e`, the sum over the channels of the products of the two embeddings of edge `e`: the padding is never read.
  The reference sums the same products from the initial value zero.
-/
import proofs.«172463_j18047452577826_1_alg».proof.Proof.Gen.ReferenceIdeal.Read
import proofs.«172463_j18047452577826_1_alg».proof.Proof.Spec
import Idealize.ShloMosaic.Lib.Pipeline.Value
import Idealize.ShloMosaic.Lib.KernelVsHost
import Idealize.ShloMosaic.PureOps.Ideal.Laws
import Idealize.ShloMosaic.Lib.ValueLayout

noncomputable section

open scoped BigOperators

namespace Cert.RefSide

open Cert.ReferenceIdeal Cert.ReferenceIdeal.Read Idealize.ShloMosaic Idealize.ShloMosaic.ValueIdx

/-- Grouped, padded, summed over the channels, flattened and cut back: at edge `e` the sum over the channels of the
    products of the two embeddings, for any two arrays of per-edge embeddings and any padding value. -/
theorem decode_layout (zs zd : (⟨2, ![800000, 64]⟩ : Shape).Idx → EReal) {u : Shape} (pv : u.Idx → EReal) (hu : 0 < u.numel)
    (h1 : (⟨2, ![800000, 64]⟩ : Shape).ShapeCasts ⟨3, ![6250, 128, 64]⟩)
    (h2 : (⟨3, ![6250, 128, 64]⟩ : Shape).Pads ![0, 0, 0] ![86, 0, 0] ![0, 0, 0] ⟨3, ![6336, 128, 64]⟩)
    (h3 : (⟨2, ![6336, 128]⟩ : Shape).ShapeCasts ⟨1, ![811008]⟩)
    (h4 : (⟨1, ![811008]⟩ : Shape).Slices ![0] ⟨1, ![800000]⟩) (e : Fin 800000) :
    extractStridedSlice ⟨1, ![800000]⟩ ![0]
        (shapeCast ⟨1, ![811008]⟩
          (Cert.Sage.dots (R := 6336) (L := 128) (K := 64)
            (pad ⟨3, ![6336, 128, 64]⟩ ![0, 0, 0] ![86, 0, 0] ![0, 0, 0] (shapeCast ⟨3, ![6250, 128, 64]⟩ zs h1) pv h2 hu)
            (pad ⟨3, ![6336, 128, 64]⟩ ![0, 0, 0] ![86, 0, 0] ![0, 0, 0] (shapeCast ⟨3, ![6250, 128, 64]⟩ zd h1) pv h2 hu)) h3) h4 (ix1 e)
      = ∑ k : Fin 64, zs (ix2 e k) * zd (ix2 e k) := by
  have he : e.val < 800000 := e.isLt
  have hq : e.val / 128 < 6250 := by omega
  have hq' : e.val / 128 < 6336 := by omega
  have hr : e.val % 128 < 128 := Nat.mod_lt _ (by omega)
  have he' : e.val < 811008 := by omega
  -- the cut [0:800000]: the kept entry e is entry e of the 811008 flattened results
  refine (extractStridedSlice_apply _ _ _ (ix1 e) (ix1 (⟨e.val, he'⟩ : Fin 811008))
    (fun a => match a with | ⟨0, _⟩ => by show e.val = 0 + e.val; omega)).trans ?_
  -- the flattening [6336,128] → [811008]: entry e is entry e % 128 of group e / 128
  refine (shapeCast_apply _ _ _ (ix2 (⟨e.val / 128, hq'⟩ : Fin 6336) (⟨e.val % 128, hr⟩ : Fin 128))
    (by rw [Shape.rowMajor_val_two, Shape.rowMajor_val_one]
        show e.val / 128 * 128 + e.val % 128 = e.val
        omega)).trans ?_
  -- the sum over the channels of the products
  refine (Cert.Sage.dots_apply _ _ _ _).trans ?_
  -- group e / 128 < 6250 is inside the unpadded part, and there the regrouped array at (e / 128, e % 128, k) is the
  -- array of embeddings at (e, k)
  have hread : ∀ (z : (⟨2, ![800000, 64]⟩ : Shape).Idx → EReal) (k : Fin 64),
      pad ⟨3, ![6336, 128, 64]⟩ ![0, 0, 0] ![86, 0, 0] ![0, 0, 0] (shapeCast ⟨3, ![6250, 128, 64]⟩ z h1) pv h2 hu
          (ix3 (⟨e.val / 128, hq'⟩ : Fin 6336) (⟨e.val % 128, hr⟩ : Fin 128) k)
        = z (ix2 e k) := by
    intro z k
    refine (pad_apply_of_inside _ _ _ _ _ _ _ _
      (ix3 (⟨e.val / 128, hq⟩ : Fin 6250) (⟨e.val % 128, hr⟩ : Fin 128) k)
      (fun a => match a with
        | ⟨0, _⟩ => by show e.val / 128 = 0 + e.val / 128 * (0 + 1); omega
        | ⟨1, _⟩ => by show e.val % 128 = 0 + e.val % 128 * (0 + 1); omega
        | ⟨2, _⟩ => by show k.val = 0 + k.val * (0 + 1); omega)).trans ?_
    exact shapeCast_apply _ _ _ (ix2 e k)
      (by rw [Shape.rowMajor_val_two, Shape.rowMajor_val_three]
          show e.val * 64 + k.val = (e.val / 128 * 128 + e.val % 128) * 64 + k.val
          omega)
  exact Finset.sum_congr rfl fun k _ => by rw [hread zs k, hread zd k]

/-- The reference's result at edge `e`: the sum over the channels of the products of the two gathered embeddings
    (`val_main_v61`, `val_main_v68`); its initial value is zero. -/
theorem out_ref (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (e : Fin 800000) :
    val_main_v70 (F := Ideal) x0 x1 x2 x3 x4 x5 x6 x7 (ix1 e)
      = ∑ k : Fin 64, val_main_v61 (F := Ideal) x0 x1 x2 x3 x4 x5 x6 x7 (ix2 e k) * val_main_v68 (F := Ideal) x0 x1 x2 x3 x4 x5 x6 x7 (ix2 e k) := by
  rw [val_main_v70_apply, val_main_cst_14_apply, Ideal.ofBits_def, Ideal.ofBits_zero_f32, zero_add]
  refine Finset.sum_congr rfl fun k _ => ?_
  have hk : idx_main_v70 (ix1 e) k = ix2 e k :=
    funext fun a => Fin.ext (by match a with | ⟨0, _⟩ => rfl | ⟨1, _⟩ => rfl)
  rw [hk, val_main_v69_apply, Ideal.mulf_def]

end Cert.RefSide

end
-- ==== Proof.KValue.lean ====
/-
  The kernel program's result is the reference's.

  After the second kernel the program gathers the embeddings of every edge's two endpoints exactly as the reference
  does, regroups each array into groups of 128 edges and pads the groups; the decoder leaves the channel sums of the
  products, which the program flattens and cuts back to the 800000 edges. At every edge that is the reference's sum of
  products from zero.
-/
import proofs.«172463_j18047452577826_1_alg».proof.Proof.Gen.KernelIdeal.Frame
import proofs.«172463_j18047452577826_1_alg».proof.Proof.Gen.ReferenceIdeal.Read
import proofs.«172463_j18047452577826_1_alg».proof.Proof.KStages
import proofs.«172463_j18047452577826_1_alg».proof.Proof.Decoder
import proofs.«172463_j18047452577826_1_alg».proof.Proof.RefDecode

set_option maxRecDepth 16384
set_option maxHeartbeats 1000000

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## Before the decoder -/

/-- The sources' embeddings, regrouped and padded. -/
theorem zs8 (c : Dev nD) : (V8 m ρ c main_v62 : S6336x128x64.Idx → EReal)
    = pad S6336x128x64 ![0, 0, 0] ![86, 0, 0] ![0, 0, 0]
        (shapeCast S6250x128x64 (Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S800000x64_S6250x128x64)
        (sitofp (F := Ideal) .f32 (constantI S_ 32 0#32)) pads_S6250x128x64_S6336x128x64_0860_000_000 h_S_ := by
  show StableHlo.after hostOps2_3 (StableHlo.after hostOps2_2 (StableHlo.after hostOps2_1 (StableHlo.after hostOps2 (W4 m ρ c)))) (Proc.devRef .tc main_v62) = _
  after_results_simp
  simp only [TRef.toBuf, TRef.ofBuf, cast_eq]
  rw [z4 m ρ c, src4 m ρ c]
  rfl
/-- The destinations' embeddings, regrouped and padded. -/
theorem zd8 (c : Dev nD) : (V8 m ρ c main_v63 : S6336x128x64.Idx → EReal)
    = pad S6336x128x64 ![0, 0, 0] ![86, 0, 0] ![0, 0, 0]
        (shapeCast S6250x128x64 (Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S800000x64_S6250x128x64)
        (sitofp (F := Ideal) .f32 (constantI S_ 32 0#32)) pads_S6250x128x64_S6336x128x64_0860_000_000 h_S_ := by
  show StableHlo.after hostOps2_3 (StableHlo.after hostOps2_2 (StableHlo.after hostOps2_1 (StableHlo.after hostOps2 (W4 m ρ c)))) (Proc.devRef .tc main_v63) = _
  after_results_simp
  simp only [TRef.toBuf, TRef.ofBuf, cast_eq]
  rw [z4 m ρ c, dst4 m ρ c]
  rfl

/-! ## After the decoder -/

/-- The program's result is the reference's. -/
theorem result_eq (c : Dev nD) : (W10 m ρ c (Proc.devRef .tc main_v66) : S800000.Idx → EReal)
    = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : (W10 m ρ c (Proc.devRef .tc main_v66) : S800000.Idx → EReal)
      = extractStridedSlice S800000 ![0] (shapeCast S811008 (W9 m ρ c (Proc.devRef .tc main_v64) : S6336x128.Idx → EReal) shapeCasts_S6336x128_S811008) slices_S811008_S800000_0 := by
    show StableHlo.after hostOps3 (W9 m ρ c) (Proc.devRef .tc main_v66) = _
    after_results_simp
    rfl
  rw [e, show W9 m ρ c (Proc.devRef .tc main_v64) = _ from W9_arr m ρ c 2, Cert.KernelIdeal.Decoder.arr,
    show V8 m ρ c main_v62 = _ from zs8 m ρ c, show V8 m ρ c main_v63 = _ from zd8 m ρ c]
  funext i
  obtain ⟨e, rfl⟩ : ∃ e : Fin 800000, i = ix1 e := ⟨i 0, eq_ix1 i⟩
  rw [Cert.RefSide.out_ref]
  exact Cert.RefSide.decode_layout _ _ _ _ _ _ _ _ e

end Cert.KernelIdeal.Chain

end
-- ==== Proof.lean ====
/-
  The certificate of a two-layer graph encoder with a dot-product link decoder against its plain reference.

  Both programs compute, for every edge, the sum over 64 channels of the products of its two endpoints' embeddings;
  a node's embedding is two layers of "mean of the in-neighbours' features against one weight, plus the node's own
  features against another, plus a bias", the first layer clamped at zero. The kernel program runs each layer's two
  matrix products and the decoder's sum as kernels over blocks of rows and keeps the gathers and the per-destination
  sums on the host, exactly as the reference has them. On the extended reals the two programs differ only in the order
  in which a layer's three addends are added, and addition there is commutative and associative, so the results are
  equal at every index for every input: the precondition is never opened.

  The frames of the two kernel programs are the generated ones; the reference's frame is its generated run with the
  result dropped; the ideal pass rewrote nothing, so the idealization conjunct is trivial. For the value conjunct the
  kernel program's run is read at its last boundary (Proof/KRun.lean) and that boundary's result buffer is the
  reference's function of the arguments (Proof/KStages.lean and Proof/KValue.lean, over Proof/Layer1.lean, Layer2.lean,
  Decoder.lean for the kernels and Proof/RefLayers.lean, RefDecode.lean for the reference's stages).
-/
import proofs.«172463_j18047452577826_1_alg».proof.Defs
import proofs.«172463_j18047452577826_1_alg».proof.Proof.Gen.Kernel
import proofs.«172463_j18047452577826_1_alg».proof.Proof.Gen.Kernel.Frame
import proofs.«172463_j18047452577826_1_alg».proof.Proof.Gen.KernelIdeal
import proofs.«172463_j18047452577826_1_alg».proof.Proof.Gen.KernelIdeal.Frame
import proofs.«172463_j18047452577826_1_alg».proof.Proof.Gen.ReferenceIdeal
import proofs.«172463_j18047452577826_1_alg».proof.Proof.Gen.ReferenceIdeal.Run
import proofs.«172463_j18047452577826_1_alg».proof.Proof.Gen.ReferenceIdeal.Read
import proofs.«172463_j18047452577826_1_alg».proof.Proof.Gen.Pre_finite_inputs
import proofs.«172463_j18047452577826_1_alg».proof.Proof.KRun
import proofs.«172463_j18047452577826_1_alg».proof.Proof.KValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the reference's function `val_main_v70` of the (agreeing) arguments. -/
theorem algebraic : Cert.algebraic_KernelIdeal_ReferenceIdeal := by
  intro m ρ m' ρ' _ hagree
  refine ⟨fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v70_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
